-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S64x64x32x512 : Shape := ⟨4, ![64, 64, 32, 512]⟩
abbrev S512 : Shape := ⟨1, ![512]⟩
abbrev S64x64x32 : Shape := ⟨3, ![64, 64, 32]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S64x64x32x512 : S_.BroadcastsInDim S64x64x32x512 (![] : Fin 0 → Fin S64x64x32x512.rank)
  reducesTo_S64x64x32x512_S_d0_1_2_3 : S64x64x32x512.ReducesTo [0, 1, 2, 3] S_
  bcast_S_S512 : S_.BroadcastsInDim S512 (![] : Fin 0 → Fin S512.rank)
  reducesTo_S512_S_d0 : S512.ReducesTo [0] S_
  bcast_S_S64x64x32 : S_.BroadcastsInDim S64x64x32 (![] : Fin 0 → Fin S64x64x32.rank)
  reducesTo_S64x64x32_S_d0_1_2 : S64x64x32.ReducesTo [0, 1, 2] S_

variable [Facts]

def fn_part1 {F : FTy → Type} [FloatOps F] (main_v13 : IVec S_ 1) (main_v16 : IVec S64x64x32 1) : IVec S_ 1 :=
  let main_c_5 : IVec S_ 1 := constantI S_ 1 1#1
  let main_v17 : IVec S_ 1 := (fun x v => Host.reduce IntOp.andi x v reducesTo_S64x64x32_S_d0_1_2 h_S_) main_v16 main_c_5
  let main_v18 : IVec S_ 1 := andi main_v13 main_v17
  main_v18

def fn {F : FTy → Type} [FloatOps F] (main_arg0 : FVec F S32x512 .f32) (main_arg1 : FVec F S64x64x32x512 .f32) (main_arg2 : FVec F S512 .f32) (main_arg3 : FVec F S64x64x32 .f32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S64x64x32x512 .f32 := Host.absf main_arg1
  let main_cst_0 : FVec F S_ .f32 := constant S_ .f32 0x7F800000#32
  let main_v5 : FVec F S64x64x32x512 .f32 := broadcastInDim S64x64x32x512 ![] bcast_S_S64x64x32x512 main_cst_0
  let main_v6 : IVec S64x64x32x512 1 := cmpf .olt main_v4 main_v5
  let main_c_1 : IVec S_ 1 := constantI S_ 1 1#1
  let main_v7 : IVec S_ 1 := (fun x v => Host.reduce IntOp.andi x v reducesTo_S64x64x32x512_S_d0_1_2_3 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S64x64x32 .f32 := Host.absf main_arg3
  let main_cst_4 : FVec F S_ .f32 := constant S_ .f32 0x7F800000#32
  let main_v15 : FVec F S64x64x32 .f32 := broadcastInDim S64x64x32 ![] bcast_S_S64x64x32 main_cst_4
  let main_v16 : IVec S64x64x32 1 := cmpf .olt main_v14 main_v15
  fn_part1 (F := F) main_v13 main_v16
-- ==== Kernel.lean ====
abbrev S32x512 : Shape := ⟨2, ![32, 512]⟩
abbrev S64x64x32x512 : Shape := ⟨4, ![64, 64, 32, 512]⟩
abbrev S512 : Shape := ⟨1, ![512]⟩
abbrev S64x64x32 : Shape := ⟨3, ![64, 64, 32]⟩
abbrev S1x512 : Shape := ⟨2, ![1, 512]⟩
abbrev S131072x512 : Shape := ⟨2, ![131072, 512]⟩
abbrev S1x131072 : Shape := ⟨2, ![1, 131072]⟩
abbrev S32x131072 : Shape := ⟨2, ![32, 131072]⟩
abbrev S4096x512 : Shape := ⟨2, ![4096, 512]⟩
abbrev S1x4096 : Shape := ⟨2, ![1, 4096]⟩
abbrev S32x4096 : Shape := ⟨2, ![32, 4096]⟩
abbrev S32x64x64x32 : Shape := ⟨4, ![32, 64, 64, 32]⟩

abbrev nBuf : Space → Nat
  | .hbm => 11
  | .vmem => 7
  | .smem => 0
  | _ => 0

abbrev bufTy : (tb : Table) → Fin (tcTables nBuf tb) → BufTy
  | .hbm, ⟨0, _⟩ => ⟨S32x512, .f32⟩
  | .hbm, ⟨1, _⟩ => ⟨S64x64x32x512, .f32⟩
  | .hbm, ⟨2, _⟩ => ⟨S512, .f32⟩
  | .hbm, ⟨3, _⟩ => ⟨S64x64x32, .f32⟩
  | .hbm, ⟨4, _⟩ => ⟨S1x512, .f32⟩
  | .hbm, ⟨5, _⟩ => ⟨S32x512, .f32⟩
  | .hbm, ⟨6, _⟩ => ⟨S32x512, .f32⟩
  | .hbm, ⟨7, _⟩ => ⟨S131072x512, .f32⟩
  | .hbm, ⟨8, _⟩ => ⟨S1x131072, .f32⟩
  | .hbm, ⟨9, _⟩ => ⟨S32x131072, .f32⟩
  | .hbm, ⟨10, _⟩ => ⟨S32x64x64x32, .f32⟩
  | .local _ .vmem, ⟨0, _⟩ => ⟨S32x512, .f32⟩
  | .local _ .vmem, ⟨1, _⟩ => ⟨S4096x512, .f32⟩
  | .local _ .vmem, ⟨2, _⟩ => ⟨S4096x512, .f32⟩
  | .local _ .vmem, ⟨3, _⟩ => ⟨S1x4096, .f32⟩
  | .local _ .vmem, ⟨4, _⟩ => ⟨S1x4096, .f32⟩
  | .local _ .vmem, ⟨5, _⟩ => ⟨S32x4096, .f32⟩
  | .local _ .vmem, ⟨6, _⟩ => ⟨S32x4096, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  shapeCasts_S64x64x32x512_S131072x512 : S64x64x32x512.ShapeCasts S131072x512
  shapeCasts_S64x64x32_S1x131072 : S64x64x32.ShapeCasts S1x131072
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  bitsLt_bf16_f32 : FTy.bits .bf16 < FTy.bits .f32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S32x4096 : S1x4096.Broadcasts S32x4096
  inb_S32x4096_S32x4096_0_0 : ∀ a, (![0, 0] : Fin 2 → Nat) a + S32x4096.size a ≤ S32x4096.size a
  h_S32x4096 : 0 < S32x4096.numel
  shapeCasts_S32x131072_S32x64x64x32 : S32x131072.ShapeCasts S32x64x64x32
  dot_S32x512_S4096x512_S32x4096_1_1_0_0_n_n_wf : DotDims.WF S32x512 S4096x512 S32x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S32x512.size a
  hwx0_0 : ∀ i : grid0.Coords, EltTy.bits .f32 = 32 ∨ (Rect.block (s := S32x512) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S131072x512.size a
  hwx0_1 : ∀ i : grid0.Coords, EltTy.bits .f32 = 32 ∨ (Rect.block (s := S131072x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x131072.size a
  hwx0_2 : ∀ i : grid0.Coords, EltTy.bits .f32 = 32 ∨ (Rect.block (s := S1x131072) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x4096.size a ≤ S32x131072.size a
  hwx0_3 : ∀ i : grid0.Coords, EltTy.bits .f32 = 32 ∨ (Rect.block (s := S32x131072) S32x4096.size (cc0_transform_3 i) (hinb0_3 i)).WholeWords (EltTy.packing .f32)

variable [Facts₀]

def dot_S32x512_S4096x512_S32x4096_1_1_0_0_n_n : DotDims S32x512 S4096x512 S32x4096 where
  lhsContracting := [1]
  rhsContracting := [1]
  lhsNonContracting := [0]
  rhsNonContracting := [0]
  lhsBatch := []
  rhsBatch := []
  wf := dot_S32x512_S4096x512_S32x4096_1_1_0_0_n_n_wf

abbrev win0_0 : Pipeline.Window sig grid0 :=
  Pipeline.Window.ofSpec (Memref.whole main_v2) S32x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S32x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512 : Shape := ⟨2, ![32, 512]⟩
abbrev S64x64x32x512 : Shape := ⟨4, ![64, 64, 32, 512]⟩
abbrev S512 : Shape := ⟨1, ![512]⟩
abbrev S64x64x32 : Shape := ⟨3, ![64, 64, 32]⟩
abbrev S1x512 : Shape := ⟨2, ![1, 512]⟩
abbrev S32x64x64x32 : Shape := ⟨4, ![32, 64, 64, 32]⟩
abbrev S1x64x64x32 : Shape := ⟨4, ![1, 64, 64, 32]⟩

abbrev nBuf : Space → Nat
  | .hbm => 11
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S64x64x32x512, .f32⟩
  | .hbm, ⟨2, _⟩ => ⟨S512, .f32⟩
  | .hbm, ⟨3, _⟩ => ⟨S64x64x32, .f32⟩
  | .hbm, ⟨4, _⟩ => ⟨S1x512, .f32⟩
  | .hbm, ⟨5, _⟩ => ⟨S32x512, .f32⟩
  | .hbm, ⟨6, _⟩ => ⟨S32x512, .f32⟩
  | .hbm, ⟨7, _⟩ => ⟨S32x64x64x32, .f32⟩
  | .hbm, ⟨8, _⟩ => ⟨S1x64x64x32, .f32⟩
  | .hbm, ⟨9, _⟩ => ⟨S32x64x64x32, .f32⟩
  | .hbm, ⟨10, _⟩ => ⟨S32x64x64x32, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S64x64x32_S1x64x64x32_1_2_3 : S64x64x32.BroadcastsInDim S1x64x64x32 (![1, 2, 3] : Fin 3 → Fin S1x64x64x32.rank)
  bcast_S1x64x64x32_S32x64x64x32_0_1_2_3 : S1x64x64x32.BroadcastsInDim S32x64x64x32 (![0, 1, 2, 3] : Fin 4 → Fin S32x64x64x32.rank)
  dot_S32x512_S64x64x32x512_S32x64x64x32_1_3_0_012_n_n_wf : DotDims.WF S32x512 S64x64x32x512 S32x64x64x32 [1] [3] [0] [0, 1, 2] [] []

variable [Facts₀]

def dot_S32x512_S64x64x32x512_S32x64x64x32_1_3_0_012_n_n : DotDims S32x512 S64x64x32x512 S32x64x64x32 where
  lhsContracting := [1]
  rhsContracting := [3]
  lhsNonContracting := [0]
  rhsNonContracting := [0, 1, 2]
  lhsBatch := []
  rhsBatch := []
  wf := dot_S32x512_S64x64x32x512_S32x64x64x32_1_3_0_012_n_n_wf

class Facts : Prop extends Facts₀ where

variable [Facts]
-- ==== Proof.Spec.lean ====
/-
  The function both programs compute, stated once over the four argument arrays
  style[32,512], U[64,64,32,512], L[512] and mu[64,64,32]:

      h[b,r,s,c] = Σ_{k<512} (L[k] · style[b,k]) · U[r,s,c,k] + mu[r,s,c]

  on the extended reals. The reference contracts U's last axis directly; the kernel flattens
  (r,s,c) to one row index n = (r·64 + s)·32 + c, contracts row n of the flattened U, adds
  entry n of the flattened mu, and unflattens the result. The flattening is a bijection on
  positions, each product keeps its two factors in the same order, and each sum runs over the same
  k, so no law of the extended reals is needed beyond reading both sides at an index.
-/
import Idealize.ShloMosaic.PureOps.Ideal
import Idealize.ShloMosaic.Lib.ValueIdx

noncomputable section

namespace Cert.Modulated

open Idealize.ShloMosaic Idealize.ShloMosaic.ValueIdx

/-- One entry of the result, at batch row `b` and position `(r, s, c)`: the contraction over the 512
    style channels of the scaled style row with U's row at that position, plus the bias there. -/
def entry (style : FVec Ideal ⟨2, ![32, 512]⟩ .f32) (U : FVec Ideal ⟨4, ![64, 64, 32, 512]⟩ .f32)
    (L : FVec Ideal ⟨1, ![512]⟩ .f32) (mu : FVec Ideal ⟨3, ![64, 64, 32]⟩ .f32)
    (b : Fin 32) (r : Fin 64) (s : Fin 64) (c : Fin 32) : EReal :=
  (∑ k : Fin 512, (L (ix1 k) * style (ix2 b k)) * U (ix4 r s c k)) + mu (ix3 r s c)

/-- The whole result array. -/
def result (style : FVec Ideal ⟨2, ![32, 512]⟩ .f32) (U : FVec Ideal ⟨4, ![64, 64, 32, 512]⟩ .f32)
    (L : FVec Ideal ⟨1, ![512]⟩ .f32) (mu : FVec Ideal ⟨3, ![64, 64, 32]⟩ .f32) :
    FVec Ideal ⟨4, ![32, 64, 64, 32]⟩ .f32 :=
  fun i => entry style U L mu (i 0) (i 1) (i 2) (i 3)

end Cert.Modulated

end
-- ==== Proof.RefValue.lean ====
/-
  The reference at an index. Its result is the sum of a contraction and a broadcast bias:
  entry (b,r,s,c) of the contraction is Σ_k scaled[b,k] · U[r,s,c,k] with
  scaled[b,k] = L[k] · style[b,k] (L broadcast along the batch axis), and the bias there is
  mu[r,s,c] (mu broadcast along the batch axis). Reading each operation at an index, outermost
  first, gives exactly the specified entry; what is left is to name the composed index maps by
  their coordinates.
-/
import proofs.«159313_j38766374814279_1_alg».proof.Proof.Gen.ReferenceIdeal.Read
import proofs.«159313_j38766374814279_1_alg».proof.Proof.Spec

noncomputable section

namespace Cert.ReferenceIdeal.AtIndex

open Cert.ReferenceIdeal Cert.ReferenceIdeal.Gen Cert.ReferenceIdeal.Read
open Idealize.ShloMosaic Idealize.ShloMosaic.ValueIdx

variable (b : Fin 32) (r s : Fin 64) (c : Fin 32) (k : Fin 512)

/-- The scale vector is read at the contraction coordinate alone. -/
theorem scale_index : idx_main_v0 (idx_main_v1 (ix2 b k)) = ix1 k :=
  funext fun a => by match a with | ⟨0, _⟩ => rfl

/-- The style matrix is read at the batch row and the contraction coordinate. -/
theorem style_index : lidx_main_v3 (ix4 b r s c) k = ix2 b k :=
  funext fun a => by match a with | ⟨0, _⟩ => rfl | ⟨1, _⟩ => rfl

/-- U is read at the position and the contraction coordinate. -/
theorem basis_index : ridx_main_v3 (ix4 b r s c) k = ix4 r s c k :=
  funext fun a => by match a with | ⟨0, _⟩ => rfl | ⟨1, _⟩ => rfl | ⟨2, _⟩ => rfl | ⟨3, _⟩ => rfl

/-- The bias is read at the position. -/
theorem bias_index : idx_main_v4 (idx_main_v5 (ix4 b r s c)) = ix3 r s c :=
  funext fun a => by match a with | ⟨0, _⟩ => rfl | ⟨1, _⟩ => rfl | ⟨2, _⟩ => rfl

/-- The reference's result is the specified array. -/
theorem result_eq (x0 : FVec Ideal S32x512 .f32) (x1 : FVec Ideal S64x64x32x512 .f32)
    (x2 : FVec Ideal S512 .f32) (x3 : FVec Ideal S64x64x32 .f32) :
    val_main_v6 (F := Ideal) x0 x1 x2 x3 = Cert.Modulated.result x0 x1 x2 x3 := by
  funext i
  obtain ⟨b, r, s, c, rfl⟩ : ∃ (b : Fin 32) (r s : Fin 64) (c : Fin 32), i = ix4 b r s c :=
    ⟨i 0, i 1, i 2, i 3, eq_ix4 i⟩
  rw [val_main_v6_apply, val_main_v3_apply, val_main_v5_apply, val_main_v4_apply]
  simp only [val_main_v2_apply, val_main_v1_apply, val_main_v0_apply, scale_index, style_index,
    basis_index, bias_index]
  rfl

end Cert.ReferenceIdeal.AtIndex

end
-- ==== Proof.KernelBlock.lean ====
/-
  One grid point of the kernel, at an index. The body loads the scaled style matrix x0[32,512],
  a block x1[4096,512] of 4096 rows of the flattened U and the matching block x2[1,4096] of the
  flattened mu, and stores

      y[b,j] = Σ_{k<512} x0[b,k] · x1[j,k] + x2[0,j].

  The narrowing of both matrix operands to bfloat16 is the identity on the extended reals, the
  product contracts the second axis of both operands into a zero accumulator, and the bias row is
  broadcast along the batch axis.
-/
import proofs.«159313_j38766374814279_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen
open Idealize.ShloMosaic Idealize.ShloMosaic.ValueIdx

/-! ## The product's operand indices, axis by axis -/

theorem lhs_axis0 (j : S32x4096.Idx) (q : dot_S32x512_S4096x512_S32x4096_1_1_0_0_n_n.contr.Idx) :
    (dot_S32x512_S4096x512_S32x4096_1_1_0_0_n_n.lhsIdx j q 0).val = (j 0).val := by
  unfold DotDims.lhsIdx
  rw [dif_neg (show ¬(0 : Fin S32x512.rank) ∈ dot_S32x512_S4096x512_S32x4096_1_1_0_0_n_n.lhsBatch by decide), dif_pos (show (0 : Fin S32x512.rank) ∈ dot_S32x512_S4096x512_S32x4096_1_1_0_0_n_n.lhsNonContracting by decide)]
  rfl
theorem lhs_axis1 (j : S32x4096.Idx) (q : dot_S32x512_S4096x512_S32x4096_1_1_0_0_n_n.contr.Idx) :
    (dot_S32x512_S4096x512_S32x4096_1_1_0_0_n_n.lhsIdx j q 1).val = (q ⟨0, by decide⟩).val :=
  dot_S32x512_S4096x512_S32x4096_1_1_0_0_n_n.lhsIdx_val_of_single rfl j q
theorem rhs_axis0 (j : S32x4096.Idx) (q : dot_S32x512_S4096x512_S32x4096_1_1_0_0_n_n.contr.Idx) :
    (dot_S32x512_S4096x512_S32x4096_1_1_0_0_n_n.rhsIdx j q 0).val = (j 1).val := by
  unfold DotDims.rhsIdx
  rw [dif_neg (show ¬(0 : Fin S4096x512.rank) ∈ dot_S32x512_S4096x512_S32x4096_1_1_0_0_n_n.rhsBatch by decide), dif_pos (show (0 : Fin S4096x512.rank) ∈ dot_S32x512_S4096x512_S32x4096_1_1_0_0_n_n.rhsNonContracting by decide)]
  rfl
theorem rhs_axis1 (j : S32x4096.Idx) (q : dot_S32x512_S4096x512_S32x4096_1_1_0_0_n_n.contr.Idx) :
    (dot_S32x512_S4096x512_S32x4096_1_1_0_0_n_n.rhsIdx j q 1).val = (q ⟨0, by decide⟩).val :=
  dot_S32x512_S4096x512_S32x4096_1_1_0_0_n_n.rhsIdx_val_of_single rfl j q

/-- The product into the zero accumulator at entry (b, j): row b of the left operand against row j
    of the right operand. -/
theorem product_apply (l : FVec Ideal S32x512 .bf16) (rr : FVec Ideal S4096x512 .bf16) (b : Fin 32) (j : Fin 4096) :
    matmul (F := Ideal) dot_S32x512_S4096x512_S32x4096_1_1_0_0_n_n none l rr (constant (F := Ideal) S32x4096 .f32 0x00000000#32) (ix2 b j)
      = ∑ k : Fin 512, l (ix2 b k) * rr (ix2 j k) := by
  simp only [matmul]
  rw [Ideal.matmul_constant_zero_apply, ← Equiv.sum_comp (contrEquiv1 dot_S32x512_S4096x512_S32x4096_1_1_0_0_n_n 512 rfl rfl).symm]
  refine Finset.sum_congr rfl fun k _ => ?_
  have hk := contrEquiv1_symm_val dot_S32x512_S4096x512_S32x4096_1_1_0_0_n_n 512 rfl rfl k
  have el : dot_S32x512_S4096x512_S32x4096_1_1_0_0_n_n.lhsIdx (ix2 b j) ((contrEquiv1 dot_S32x512_S4096x512_S32x4096_1_1_0_0_n_n 512 rfl rfl).symm k) = ix2 b k := funext fun a => Fin.ext (by
    match a with
    | ⟨0, _⟩ => exact lhs_axis0 _ _
    | ⟨1, _⟩ => exact (lhs_axis1 _ _).trans hk)
  have er : dot_S32x512_S4096x512_S32x4096_1_1_0_0_n_n.rhsIdx (ix2 b j) ((contrEquiv1 dot_S32x512_S4096x512_S32x4096_1_1_0_0_n_n 512 rfl rfl).symm k) = ix2 j k := funext fun a => Fin.ext (by
    match a with
    | ⟨0, _⟩ => exact rhs_axis0 _ _
    | ⟨1, _⟩ => exact (rhs_axis1 _ _).trans hk)
  rw [el, er]

/-- The bias row broadcast along the batch axis, at entry (b, j): its entry j. -/
theorem bias_apply (v : FVec Ideal S1x4096 .f32) (b : Fin 32) (j : Fin 4096) :
    broadcastTo S32x4096 v broadcasts_S1x4096_S32x4096 (ix2 b j) = v (ix2 (0 : Fin 1) j) :=
  broadcastTo_apply v broadcasts_S1x4096_S32x4096 (ix2 b j) (ix2 (0 : Fin 1) j) (fun a => match a with
    | ⟨0, _⟩ => by show 0 = if (1 : Nat) = 1 then 0 else _; rw [if_pos rfl]
    | ⟨1, _⟩ => by show j.val = if (4096 : Nat) = 1 then 0 else j.val; rw [if_neg (by decide)])

/-- What the body stores, at entry (b, j). -/
theorem stored_apply (x1 : Vec Ideal S4096x512 .f32) (x0 : Vec Ideal S32x512 .f32) (x2 : Vec Ideal S1x4096 .f32)
    (b : Fin 32) (j : Fin 4096) :
    k0_pay1 (F := Ideal) x1 x0 x2 (ix2 b j)
      = (∑ k : Fin 512, x0 (ix2 b k) * x1 (ix2 j k)) + x2 (ix2 (0 : Fin 1) j) := by
  unfold k0_pay1
  simp only [shapeCast_self]
  rw [addf_apply, product_apply, bias_apply]
  rfl

end Cert.KernelIdeal.Block

end
-- ==== Proof.KernelArray.lean ====
/-
  The call's result array [32,131072] after all 32 grid points, as ONE function of the three arrays
  the call is given: the scaled style matrix a2[32,512], the flattened U a3[131072,512] and the
  flattened mu a4[1,131072]:

      z[b,n] = Σ_{k<512} a2[b,k] · a3[n,k] + a4[0,n].

  Grid point t reads the whole of a2, rows 4096·t … 4096·t + 4095 of a3 and the same columns of a4,
  and writes columns 4096·t … 4096·t + 4095 of z; what it writes is z restricted to those columns, and
  the 32 column blocks cover z.
-/
import proofs.«159313_j38766374814279_1_alg».proof.Proof.Gen.KernelIdeal.Frame
import proofs.«159313_j38766374814279_1_alg».proof.Proof.KernelBlock

set_option maxRecDepth 16384

noncomputable section

namespace Cert.KernelIdeal.Flat

open Cert.KernelIdeal Cert.KernelIdeal.Gen
open Idealize.ShloMosaic Idealize.ShloMosaic.TcCoe Idealize.SL.Sem Idealize.ShloMosaic.ValueIdx
open Idealize.ShloMosaic.Pipeline (Dat)

/-- Entry (b, n) of the call's result. -/
def entry (a2 : FVec Ideal S32x512 .f32) (a3 : FVec Ideal S131072x512 .f32) (a4 : FVec Ideal S1x131072 .f32)
    (b : Fin 32) (n : Fin 131072) : EReal :=
  (∑ k : Fin 512, a2 (ix2 b k) * a3 (ix2 n k)) + a4 (ix2 (0 : Fin 1) n)

/-- The call's result as a whole array. -/
def result (a2 : FVec Ideal S32x512 .f32) (a3 : FVec Ideal S131072x512 .f32) (a4 : FVec Ideal S1x131072 .f32) :
    FVec Ideal S32x131072 .f32 :=
  fun i => entry a2 a3 a4 (i 0) (i 1)

variable (m : (ℓ : Loc nD τ sig) → Buf (Elt Ideal) ℓ) (ρ : Dev nD → PrngReg)

theorem hz : (![0, 0] : Fin 2 → Nat) = fun _ => 0 := funext fun a => by fin_cases a <;> rfl

/-- The block each window holds at grid point t: window 0 always block (0,0); window 1 row block t;
    windows 2 and 3 column block t. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem point_lt (t : Fin cfg0.N) : t.val < 32 :=
  lt_of_lt_of_eq t.isLt N_0

/-- The scaled style matrix is staged whole at every point. -/
theorem scaled_block (c : Dev nD) (t : Fin cfg0.N) (b : Fin 32) (k : Fin 512) :
    (iblk m c 0 t : Vec Ideal S32x512 .f32) (ix2 b k) = (V m c main_v2 : FVec Ideal S32x512 .f32) (ix2 b k) := by
  obtain ⟨e0, e1, -⟩ := idx_facts t
  unfold iblk
  rw [View.read_apply]
  show V m c main_v2 _ = V m c main_v2 _
  congr 1
  funext a
  apply Fin.ext
  match a with
  | ⟨0, _⟩ => show win0_0.index t (0 : Fin 2) * 32 + 1 * b.val = b.val; rw [e0]; omega
  | ⟨1, _⟩ => show win0_0.index t (1 : Fin 2) * 512 + 1 * k.val = k.val; rw [e1]; omega

/-- Point t stages rows 4096·t … of the flattened U. -/
theorem basis_block (c : Dev nD) (t : Fin cfg0.N) (j : Fin 4096) (k : Fin 512) :
    (iblk m c 1 t : Vec Ideal S4096x512 .f32) (ix2 j k)
      = (V m c main_v3 : FVec Ideal S131072x512 .f32) (ix2 (⟨t.val * 4096 + j.val, by have := point_lt t; omega⟩ : Fin 131072) k) := by
  obtain ⟨-, -, e2, e3, -⟩ := idx_facts t
  unfold iblk
  rw [View.read_apply]
  show V m c main_v3 _ = V m c main_v3 _
  congr 1
  funext a
  apply Fin.ext
  match a with
  | ⟨0, _⟩ => show win0_1.index t (0 : Fin 2) * 4096 + 1 * j.val = t.val * 4096 + j.val; rw [e2]; omega
  | ⟨1, _⟩ => show win0_1.index t (1 : Fin 2) * 512 + 1 * k.val = k.val; rw [e3]; omega

/-- Point t stages columns 4096·t … of the flattened mu. -/
theorem bias_block (c : Dev nD) (t : Fin cfg0.N) (j : Fin 4096) :
    (iblk m c 2 t : Vec Ideal S1x4096 .f32) (ix2 (0 : Fin 1) j)
      = (V m c main_v4 : FVec Ideal S1x131072 .f32) (ix2 (0 : Fin 1) (⟨t.val * 4096 + j.val, by have := point_lt t; omega⟩ : Fin 131072)) := by
  obtain ⟨-, -, -, -, e4, e5, -⟩ := idx_facts t
  unfold iblk
  rw [View.read_apply]
  show V m c main_v4 _ = V m c main_v4 _
  congr 1
  funext a
  apply Fin.ext
  match a with
  | ⟨0, _⟩ => show win0_2.index t (0 : Fin 2) * 1 + 1 * 0 = 0; rw [e4]
  | ⟨1, _⟩ => show win0_2.index t (1 : Fin 2) * 4096 + 1 * j.val = t.val * 4096 + j.val; rw [e5]; omega

/-- Entry (b, j) of point t's output block sits at column 4096·t + j of the result array. -/
theorem out_emb (t : Fin cfg0.N) (b : Fin 32) (j : Fin 4096) :
    ((cfg0.win 3).blk t).view.emb (ix2 b j) = ix2 b (⟨t.val * 4096 + j.val, by have := point_lt t; omega⟩ : Fin 131072) := by
  obtain ⟨-, -, -, -, -, -, e6, e7⟩ := idx_facts t
  funext a
  apply Fin.ext
  match a with
  | ⟨0, _⟩ => show win0_3.index t (0 : Fin 2) * 32 + 1 * b.val = b.val; rw [e6]; omega
  | ⟨1, _⟩ => show win0_3.index t (1 : Fin 2) * 4096 + 1 * j.val = t.val * 4096 + j.val; rw [e7]; omega

/-- What point t writes back is its column block of the result array. -/
theorem flushed_eq (c : Dev nD) (t : Fin cfg0.N) :
    (dats m 0 c).flushed 3 t
      = ((cfg0.win 3).blk t).view.read (Elt Ideal) (result (V m c main_v2) (V m c main_v3) (V m c main_v4)) := by
  show (cfg0.win 3).cut (grid0.coords t) ((dats m 0 c).after 3 t) = _
  rw [after0_3]
  unfold out0_3
  rw [View.canon_unit_zero hz]
  simp only [View.ld_unit_zero (S := S4096x512) hz, View.ld_unit_zero (S := S32x512) hz, View.ld_unit_zero (S := S1x4096) hz]
  funext y
  obtain ⟨b, j, rfl⟩ : ∃ (b : Fin 32) (j : Fin 4096), y = ix2 b j := ⟨y 0, y 1, eq_ix2 y⟩
  show k0_pay1 (iblk m c 1 t) (iblk m c 0 t) (iblk m c 2 t) (ix2 b j)
    = result (V m c main_v2) (V m c main_v3) (V m c main_v4) (((cfg0.win 3).blk t).view.emb (ix2 b j))
  rw [out_emb]
  refine (Block.stored_apply (iblk m c 1 t) (iblk m c 0 t) (iblk m c 2 t) b j).trans ?_
  show _ = entry (V m c main_v2) (V m c main_v3) (V m c main_v4) b _
  unfold entry
  refine congrArg₂ (· + ·) (Finset.sum_congr rfl fun k _ => ?_) (bias_block m c t j)
  rw [scaled_block, basis_block]

/-- An index of the result array is in point t's block iff each coordinate is in the block's range. -/
theorem mem_blk (t : Fin cfg0.N) (i : S32x131072.Idx) :
    i ∈ ((cfg0.win 3).blk t).view.set ↔ ∀ a : Fin 2, win0_3.index t a * S32x4096.size a ≤ (i a).val ∧ (i a).val < win0_3.index t a * S32x4096.size a + S32x4096.size a := by
  show i ∈ ((View.whole main_v5).slice (win0_3.rect t)).set ↔ _
  rw [View.set_slice_whole, Rect.mem_set_unit]
  exact Iff.rfl

/-- Column n of the result array is written by point n / 4096. -/
theorem cover (i : S32x131072.Idx) :
    ∃ t : Fin cfg0.N, (cfg0.win 3).flush t = true ∧ i ∈ ((cfg0.win 3).blk t).view.set := by
  have h0 : (i 0).val < 32 := (i 0).isLt
  have h1 : (i 1).val < 131072 := (i 1).isLt
  have hN : (i 1).val / 4096 < cfg0.N := lt_of_lt_of_eq (by omega : (i 1).val / 4096 < 32) N_0.symm
  refine ⟨⟨(i 1).val / 4096, hN⟩, flush0_3 _, ?_⟩
  rw [mem_blk]
  obtain ⟨-, -, -, -, -, -, e6, e7⟩ := idx_facts ⟨(i 1).val / 4096, hN⟩
  intro a
  match a with
  | ⟨0, _⟩ =>
    show win0_3.index ⟨(i 1).val / 4096, hN⟩ (0 : Fin 2) * 32 ≤ (i 0).val ∧ (i 0).val < win0_3.index ⟨(i 1).val / 4096, hN⟩ (0 : Fin 2) * 32 + 32
    rw [e6]; omega
  | ⟨1, _⟩ =>
    show win0_3.index ⟨(i 1).val / 4096, hN⟩ (1 : Fin 2) * 4096 ≤ (i 1).val ∧ (i 1).val < win0_3.index ⟨(i 1).val / 4096, hN⟩ (1 : Fin 2) * 4096 + 4096
    rw [e7]
    show (i 1).val / 4096 * 4096 ≤ (i 1).val ∧ (i 1).val < (i 1).val / 4096 * 4096 + 4096
    omega

/-- After the last point the result array is the one function of the call's three operand arrays. -/
theorem final (c : Dev nD) :
    (dats m 0 c).arrAt 3 cfg0.N = result (V m c main_v2) (V m c main_v3) (V m c main_v4) :=
  (dats m 0 c).arrAt_eq_of_cover 3 (result (V m c main_v2) (V m c main_v3) (V m c main_v4))
    (fun t _ => flushed_eq m c t) cover

end Cert.KernelIdeal.Flat

end
-- ==== Proof.KernelHost.lean ====
/-
  The host lines around the call, at an index. Before the call: the scaled style matrix
  scaled[b,k] = L[k] · style[b,k]; U flattened to [131072,512] and mu to [1,131072], both by
  row-major position, so that row n = (r·64 + s)·32 + c of the flattened U is U[r,s,c,·] and entry n
  of the flattened mu is mu[r,s,c]. After the call: the result [32,131072] unflattened to
  [32,64,64,32] by the same positions. With these, entry (b, n) of the call's result is the
  specified entry (b,r,s,c).
-/
import proofs.«159313_j38766374814279_1_alg».proof.Proof.KernelArray
import proofs.«159313_j38766374814279_1_alg».proof.Proof.Spec

noncomputable section

namespace Cert.KernelIdeal.Host

open Cert.KernelIdeal Cert.KernelIdeal.Gen
open Idealize.ShloMosaic Idealize.ShloMosaic.ValueIdx

/-- The row of the flattened arrays that holds position (r, s, c). -/
def row (r s : Fin 64) (c : Fin 32) : Fin 131072 :=
  ⟨(r.val * 64 + s.val) * 32 + c.val, by have := r.isLt; have := s.isLt; have := c.isLt; omega⟩

theorem row_val (r s : Fin 64) (c : Fin 32) : (row r s c).val = (r.val * 64 + s.val) * 32 + c.val := rfl

/-- The scale vector broadcast along the batch axis and multiplied into the style matrix. -/
theorem scaled_apply (L : FVec Ideal S512 .f32) (style : FVec Ideal S32x512 .f32) (b : Fin 32) (k : Fin 512) :
    mulf (broadcastInDim S32x512 ![0, 1] bcast_S1x512_S32x512_0_1 (broadcastInDim S1x512 ![1] bcast_S512_S1x512_1 L)) style (ix2 b k)
      = L (ix1 k) * style (ix2 b k) := by
  rw [mulf_apply]
  refine congrArg (· * style (ix2 b k)) ?_
  refine (broadcastInDim_apply _ bcast_S1x512_S32x512_0_1 _ (ix2 b k) (ix2 (0 : Fin 1) k) (fun a => match a with
    | ⟨0, _⟩ => by show 0 = if (1 : Nat) = 1 then 0 else b.val; rw [if_pos rfl]
    | ⟨1, _⟩ => by show k.val = if (512 : Nat) = 1 then 0 else k.val; rw [if_neg (by decide)])).trans ?_
  exact broadcastInDim_apply _ bcast_S512_S1x512_1 L (ix2 (0 : Fin 1) k) (ix1 k) (fun a => match a with
    | ⟨0, _⟩ => by show k.val = if (512 : Nat) = 1 then 0 else k.val; rw [if_neg (by decide)])

/-- Row `row r s c` of the flattened U is U at position (r, s, c). -/
theorem flatBasis_apply (U : FVec Ideal S64x64x32x512 .f32) (r s : Fin 64) (c : Fin 32) (k : Fin 512) :
    shapeCast S131072x512 U shapeCasts_S64x64x32x512_S131072x512 (ix2 (row r s c) k) = U (ix4 r s c k) :=
  shapeCast_apply U shapeCasts_S64x64x32x512_S131072x512 (ix2 (row r s c) k) (ix4 r s c k) (by
    rw [Shape.rowMajor_val_two, Shape.rowMajor_val_four]
    show ((r.val * 64 + s.val) * 32 + c.val) * 512 + k.val = ((r.val * 64 + s.val) * 32 + c.val) * 512 + k.val
    rfl)

/-- Entry `row r s c` of the flattened mu is mu at position (r, s, c). -/
theorem flatBias_apply (mu : FVec Ideal S64x64x32 .f32) (r s : Fin 64) (c : Fin 32) :
    shapeCast S1x131072 mu shapeCasts_S64x64x32_S1x131072 (ix2 (0 : Fin 1) (row r s c)) = mu (ix3 r s c) :=
  shapeCast_apply mu shapeCasts_S64x64x32_S1x131072 (ix2 (0 : Fin 1) (row r s c)) (ix3 r s c) (by
    rw [Shape.rowMajor_val_two, Shape.rowMajor_val_three]
    show (r.val * 64 + s.val) * 32 + c.val = 0 * 131072 + ((r.val * 64 + s.val) * 32 + c.val)
    omega)

/-- The unflattened result at (b, r, s, c) is the flat result at (b, `row r s c`). -/
theorem unflatten_apply (z : FVec Ideal S32x131072 .f32) (b : Fin 32) (r s : Fin 64) (c : Fin 32) :
    shapeCast S32x64x64x32 z shapeCasts_S32x131072_S32x64x64x32 (ix4 b r s c) = z (ix2 b (row r s c)) :=
  shapeCast_apply z shapeCasts_S32x131072_S32x64x64x32 (ix4 b r s c) (ix2 b (row r s c)) (by
    rw [Shape.rowMajor_val_two, Shape.rowMajor_val_four]
    show b.val * 131072 + ((r.val * 64 + s.val) * 32 + c.val) = ((b.val * 64 + r.val) * 64 + s.val) * 32 + c.val
    omega)

/-- The kernel's whole computation, host lines included, is the specified array. -/
theorem result_eq (style : FVec Ideal S32x512 .f32) (U : FVec Ideal S64x64x32x512 .f32)
    (L : FVec Ideal S512 .f32) (mu : FVec Ideal S64x64x32 .f32) :
    shapeCast S32x64x64x32
        (Flat.result
          (mulf (broadcastInDim S32x512 ![0, 1] bcast_S1x512_S32x512_0_1 (broadcastInDim S1x512 ![1] bcast_S512_S1x512_1 L)) style)
          (shapeCast S131072x512 U shapeCasts_S64x64x32x512_S131072x512)
          (shapeCast S1x131072 mu shapeCasts_S64x64x32_S1x131072))
        shapeCasts_S32x131072_S32x64x64x32
      = Cert.Modulated.result style U L mu := by
  funext i
  obtain ⟨b, r, s, c, rfl⟩ : ∃ (b : Fin 32) (r s : Fin 64) (c : Fin 32), i = ix4 b r s c :=
    ⟨i 0, i 1, i 2, i 3, eq_ix4 i⟩
  rw [unflatten_apply]
  show Flat.entry _ _ _ b (row r s c) = Cert.Modulated.entry style U L mu b r s c
  unfold Flat.entry Cert.Modulated.entry
  rw [flatBias_apply]
  refine congrArg (· + mu (ix3 r s c)) (Finset.sum_congr rfl fun k _ => ?_)
  rw [scaled_apply, flatBasis_apply]

end Cert.KernelIdeal.Host

end
-- ==== Proof.KernelValue.lean ====
/-
  The kernel program's run, read: the call finds the scaled style matrix, the flattened U and the
  flattened mu in its three operand arrays (the host lines before it), leaves the one function of
  them in its result array, and the host line after it unflattens that array into @main's result —
  which is therefore the specified array of the four arguments; the arguments end unchanged.
-/
import proofs.«159313_j38766374814279_1_alg».proof.Proof.KernelHost
import Idealize.ShloMosaic.Lib.StableHlo.Run

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

/-! ## What the call finds in its operand arrays -/

theorem scaled_eq (c : Dev nD) :
    @Eq (FVec Ideal S32x512 .f32) (V m c main_v2)
      (mulf (broadcastInDim S32x512 ![0, 1] bcast_S1x512_S32x512_0_1 (broadcastInDim S1x512 ![1] bcast_S512_S1x512_1 (m ((c : Thread nD τ).loc main_arg2)))) (m ((c : Thread nD τ).loc main_arg0))) := by
  show StableHlo.after hostOps0 (fun b => m (c, b)) (Proc.devRef .tc main_v2) = _
  after_results <;> rfl

theorem flatBasis_eq (c : Dev nD) :
    @Eq (FVec Ideal S131072x512 .f32) (V m c main_v3)
      (shapeCast S131072x512 (m ((c : Thread nD τ).loc main_arg1)) shapeCasts_S64x64x32x512_S131072x512) := by
  show StableHlo.after hostOps0 (fun b => m (c, b)) (Proc.devRef .tc main_v3) = _
  after_results <;> rfl

theorem flatBias_eq (c : Dev nD) :
    @Eq (FVec Ideal S1x131072 .f32) (V m c main_v4)
      (shapeCast S1x131072 (m ((c : Thread nD τ).loc main_arg3)) shapeCasts_S64x64x32_S1x131072) := by
  show StableHlo.after hostOps0 (fun b => m (c, b)) (Proc.devRef .tc main_v4) = _
  after_results <;> rfl

/-! ## @main's result after the call -/

/-- The host line after the call unflattens the call's result array. -/
theorem tail_eq (c : Dev nD) :
    @Eq (FVec Ideal S32x64x64x32 .f32) (Pipeline.afterTail₀ cfgs (dats m) 0 (V0 m) [hostOps1] c main_v6)
      (shapeCast S32x64x64x32 ((dats m 0 c).arrAt 3 cfg0.N) shapeCasts_S32x131072_S32x64x64x32) := by
  unfold Pipeline.afterTail₀
  show StableHlo.after hostOps1 _ (Proc.devRef .tc main_v6) = _
  after_results
  rw [Pipeline.withArrays_arr spec0 launch0.win.arr_inj c _ _ 3]
  rfl

/-- @main's result is the specified array of the four arguments. -/
theorem result_eq (c : Dev nD) :
    @Eq (FVec Ideal S32x64x64x32 .f32) (Pipeline.afterTail₀ cfgs (dats m) 0 (V0 m) [hostOps1] c main_v6)
      (Cert.Modulated.result (m ((c.tc : Thread nD τ).loc main_arg0)) (m ((c.tc : Thread nD τ).loc main_arg1)) (m ((c.tc : Thread nD τ).loc main_arg2)) (m ((c.tc : Thread nD τ).loc main_arg3))) := by
  rw [tail_eq, Flat.final, scaled_eq, flatBasis_eq, flatBias_eq]
  exact Host.result_eq _ _ _ _

/-! ## The run -/

/-- Every weakly fair execution of the kernel program terminates with @main's result at the specified
    array of the arguments, and the arguments as they were. -/
theorem run : θ_run defs (onTc (τ := τ) (main (F := Ideal))) ⟨m, fun _ => 0, ρ⟩ fun r => ∀ c : Dev nD,
      @Eq (FVec Ideal S32x64x64x32 .f32) (r.2.mem ((c.tc : Thread nD τ).loc main_v6))
        (Cert.Modulated.result (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.lean ====
/-
  The kernel against its reference, over the extended reals.

  Both programs compute, from style[32,512], U[64,64,32,512], L[512] and mu[64,64,32],

      h[b,r,s,c] = Σ_{k<512} (L[k] · style[b,k]) · U[r,s,c,k] + mu[r,s,c].

  The reference contracts U's last axis with the scaled style matrix and adds mu broadcast along
  the batch axis. The kernel forms the same scaled matrix on the host, flattens U to [131072,512]
  and mu to [1,131072], computes the flat result z[b,n] = Σ_k scaled[b,k] · Uflat[n,k] + muflat[0,n]
  in 32 column blocks of 4096 (the operands narrowed to bfloat16 first, which changes nothing on the
  extended reals), and unflattens z. Row n = (r·64 + s)·32 + c of the flattened arrays is position
  (r,s,c), so the two results agree entry by entry: same factors in the same order, same sum over k,
  same bias. No finiteness of the inputs is used.

  Spec.lean states the common function; RefValue.lean reads the reference at an index;
  KernelBlock.lean reads one grid point's stored block at an index; KernelArray.lean assembles the 32
  blocks into the call's result array; KernelHost.lean reads the host lines around the call at an
  index; KernelValue.lean reads the kernel program's whole run. The three frames are the generated
  ones (the reference's is its run with the result dropped); the idealization rewrote nothing, so
  its conjunct is trivial.
-/
import proofs.«159313_j38766374814279_1_alg».proof.Defs
import proofs.«159313_j38766374814279_1_alg».proof.Proof.Gen.Kernel
import proofs.«159313_j38766374814279_1_alg».proof.Proof.Gen.Kernel.Skeleton
import proofs.«159313_j38766374814279_1_alg».proof.Proof.Gen.Kernel.Launch
import proofs.«159313_j38766374814279_1_alg».proof.Proof.Gen.Kernel.Points
import proofs.«159313_j38766374814279_1_alg».proof.Proof.Gen.Kernel.Frame
import proofs.«159313_j38766374814279_1_alg».proof.Proof.Gen.KernelIdeal
import proofs.«159313_j38766374814279_1_alg».proof.Proof.Gen.KernelIdeal.Skeleton
import proofs.«159313_j38766374814279_1_alg».proof.Proof.Gen.KernelIdeal.Launch
import proofs.«159313_j38766374814279_1_alg».proof.Proof.Gen.KernelIdeal.Points
import proofs.«159313_j38766374814279_1_alg».proof.Proof.Gen.KernelIdeal.Frame
import proofs.«159313_j38766374814279_1_alg».proof.Proof.Gen.ReferenceIdeal
import proofs.«159313_j38766374814279_1_alg».proof.Proof.Gen.ReferenceIdeal.Run
import proofs.«159313_j38766374814279_1_alg».proof.Proof.Gen.ReferenceIdeal.Read
import proofs.«159313_j38766374814279_1_alg».proof.Proof.Gen.Pre_finite_inputs
import proofs.«159313_j38766374814279_1_alg».proof.Proof.RefValue
import proofs.«159313_j38766374814279_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end with the result at the one specified array of arguments that agree. -/
theorem algebraic : Cert.algebraic_KernelIdeal_ReferenceIdeal := by
  intro m ρ m' ρ' _ hagree
  refine ⟨fun c => Cert.Modulated.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.AtIndex.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
